-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S327680 : Shape := ⟨1, ![327680]⟩
abbrev S2048 : Shape := ⟨1, ![2048]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S327680 : S_.BroadcastsInDim S327680 (![] : Fin 0 → Fin S327680.rank)
  reducesTo_S327680_S_d0 : S327680.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : IVec S327680 32) (main_arg2 : IVec S327680 32) (main_v13 : IVec S_ 1) (main_v15 : IVec S327680 1) (main_c_5 : IVec S_ 1) : IVec S_ 1 :=
  let main_v16 : IVec S_ 1 := (fun x v => Host.reduce IntOp.andi x v reducesTo_S327680_S_d0 h_S_) main_v15 main_c_5
  let main_v17 : IVec S_ 1 := andi main_v13 main_v16
  let main_c_6 : IVec S_ 32 := constantI S_ 32 4096#32
  let main_v18 : IVec S327680 32 := broadcastInDim S327680 ![] bcast_S_S327680 main_c_6
  let main_v19 : IVec S327680 1 := cmpi .slt main_arg2 main_v18
  let main_c_7 : IVec S_ 1 := constantI S_ 1 1#1
  let main_v20 : IVec S_ 1 := (fun x v => Host.reduce IntOp.andi x v reducesTo_S327680_S_d0 h_S_) main_v19 main_c_7
  let main_v21 : IVec S_ 1 := andi main_v17 main_v20
  let main_c_8 : IVec S_ 32 := constantI S_ 32 0#32
  let main_v22 : IVec S327680 32 := broadcastInDim S327680 ![] bcast_S_S327680 main_c_8
  let main_v23 : IVec S327680 1 := cmpi .sge main_arg1 main_v22
  let main_c_9 : IVec S_ 1 := constantI S_ 1 1#1
  let main_v24 : IVec S_ 1 := (fun x v => Host.reduce IntOp.andi x v reducesTo_S327680_S_d0 h_S_) main_v23 main_c_9
  let main_v25 : IVec S_ 1 := andi main_v21 main_v24
  main_v25

def fn {F : FTy → Type} [FloatOps F] (main_arg0 : FVec F S512x4096 .f32) (main_arg1 : IVec S327680 32) (main_arg2 : IVec S327680 32) (main_arg3 : FVec F S327680 .f32) (main_arg4 : IVec S2048 32) (main_arg5 : FVec F S2048 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S327680 .f32 := Host.absf main_arg3
  let main_cst_0 : FVec F S_ .f32 := constant S_ .f32 0x7F800000#32
  let main_v5 : FVec F S327680 .f32 := broadcastInDim S327680 ![] bcast_S_S327680 main_cst_0
  let main_v6 : IVec S327680 1 := cmpf .olt main_v4 main_v5
  let main_c_1 : IVec S_ 1 := constantI S_ 1 1#1
  let main_v7 : IVec S_ 1 := (fun x v => Host.reduce IntOp.andi x v reducesTo_S327680_S_d0 h_S_) main_v6 main_c_1
  let main_v8 : IVec S_ 1 := andi main_v3 main_v7
  let main_v9 : FVec F S2048 .f32 := Host.absf main_arg5
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_c_4 : IVec S_ 32 := constantI S_ 32 0#32
  let main_v14 : IVec S327680 32 := broadcastInDim S327680 ![] bcast_S_S327680 main_c_4
  let main_v15 : IVec S327680 1 := cmpi .sge main_arg2 main_v14
  let main_c_5 : IVec S_ 1 := constantI S_ 1 1#1
  fn_part1 (F := F) main_arg1 main_arg2 main_v13 main_v15 main_c_5
-- ==== Kernel.lean ====
abbrev S512x4096 : Shape := ⟨2, ![512, 4096]⟩
abbrev S327680 : Shape := ⟨1, ![327680]⟩
abbrev S2048 : Shape := ⟨1, ![2048]⟩
abbrev S_ : Shape := ⟨0, ![]⟩
abbrev S4096x4096 : Shape := ⟨2, ![4096, 4096]⟩
abbrev S327680x1 : Shape := ⟨2, ![327680, 1]⟩
abbrev S327680x2 : Shape := ⟨2, ![327680, 2]⟩
abbrev S4096 : Shape := ⟨1, ![4096]⟩
abbrev S2048x1 : Shape := ⟨2, ![2048, 1]⟩
abbrev S1x4096 : Shape := ⟨2, ![1, 4096]⟩
abbrev S4096x512 : Shape := ⟨2, ![4096, 512]⟩
abbrev S1x512 : Shape := ⟨2, ![1, 512]⟩
abbrev S512x512 : Shape := ⟨2, ![512, 512]⟩

abbrev nBuf : Space → Nat
  | .hbm => 41
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S327680, .i32⟩
  | .hbm, ⟨2, _⟩ => ⟨S327680, .i32⟩
  | .hbm, ⟨3, _⟩ => ⟨S327680, .f32⟩
  | .hbm, ⟨4, _⟩ => ⟨S2048, .i32⟩
  | .hbm, ⟨5, _⟩ => ⟨S2048, .f32⟩
  | .hbm, ⟨6, _⟩ => ⟨S_, .f32⟩
  | .hbm, ⟨7, _⟩ => ⟨S4096x4096, .f32⟩
  | .hbm, ⟨8, _⟩ => ⟨S_, .i32⟩
  | .hbm, ⟨9, _⟩ => ⟨S327680, .i32⟩
  | .hbm, ⟨10, _⟩ => ⟨S327680, .i1⟩
  | .hbm, ⟨11, _⟩ => ⟨S_, .i32⟩
  | .hbm, ⟨12, _⟩ => ⟨S327680, .i32⟩
  | .hbm, ⟨13, _⟩ => ⟨S327680, .i32⟩
  | .hbm, ⟨14, _⟩ => ⟨S327680, .i32⟩
  | .hbm, ⟨15, _⟩ => ⟨S_, .i32⟩
  | .hbm, ⟨16, _⟩ => ⟨S327680, .i32⟩
  | .hbm, ⟨17, _⟩ => ⟨S327680, .i1⟩
  | .hbm, ⟨18, _⟩ => ⟨S_, .i32⟩
  | .hbm, ⟨19, _⟩ => ⟨S327680, .i32⟩
  | .hbm, ⟨20, _⟩ => ⟨S327680, .i32⟩
  | .hbm, ⟨21, _⟩ => ⟨S327680, .i32⟩
  | .hbm, ⟨22, _⟩ => ⟨S327680x1, .i32⟩
  | .hbm, ⟨23, _⟩ => ⟨S327680x1, .i32⟩
  | .hbm, ⟨24, _⟩ => ⟨S327680x2, .i32⟩
  | .hbm, ⟨25, _⟩ => ⟨S4096x4096, .f32⟩
  | .hbm, ⟨26, _⟩ => ⟨S4096x4096, .bf16⟩
  | .hbm, ⟨27, _⟩ => ⟨S_, .f32⟩
  | .hbm, ⟨28, _⟩ => ⟨S4096, .f32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S4096, .f32⟩
  | .hbm, ⟨38, _⟩ => ⟨S1x4096, .f32⟩
  | .hbm, ⟨39, _⟩ => ⟨S512x4096, .bf16⟩
  | .hbm, ⟨40, _⟩ => ⟨S512x4096, .f32⟩
  | .local _ .vmem, ⟨0, _⟩ => ⟨S512x4096, .bf16⟩
  | .local _ .vmem, ⟨1, _⟩ => ⟨S4096x512, .bf16⟩
  | .local _ .vmem, ⟨2, _⟩ => ⟨S4096x512, .bf16⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x4096 : S_.BroadcastsInDim S4096x4096 (![] : Fin 0 → Fin S4096x4096.rank)
  bcast_S_S327680 : S_.BroadcastsInDim S327680 (![] : Fin 0 → Fin S327680.rank)
  bcast_S327680_S327680x1_0 : S327680.BroadcastsInDim S327680x1 (![0] : Fin 1 → Fin S327680x1.rank)
  concatenates_S327680x1_S327680x1_S327680x2_d1 : Shape.Concatenates [S327680x1, S327680x1] S327680x2 1
  bitsLt_bf16_f32 : FTy.bits .bf16 < FTy.bits .f32
  bcast_S_S4096 : S_.BroadcastsInDim S4096 (![] : Fin 0 → Fin S4096.rank)
  bcast_S_S2048 : S_.BroadcastsInDim S2048 (![] : Fin 0 → Fin S2048.rank)
  bcast_S2048_S2048x1_0 : S2048.BroadcastsInDim S2048x1 (![0] : Fin 1 → Fin S2048x1.rank)
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  scatter_S4096x4096_S327680x2_S327680_n_01_01_1_wf : ScatterDims.WF S4096x4096 S327680x2 S327680 [] [0, 1] [0, 1] 1
  scatter_S4096_S2048x1_S2048_n_0_0_1_wf : ScatterDims.WF S4096 S2048x1 S2048 [] [0] [0] 1
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x4096.size a
  hwx0_3 : ∀ i : grid0.Coords, EltTy.bits .f32 = 32 ∨ (Rect.block (s := S512x4096) S512x512.size (cc0_transform_3 i) (hinb0_3 i)).WholeWords (EltTy.packing .f32)

variable [Facts₀]

def scatter_S4096x4096_S327680x2_S327680_n_01_01_1 : ScatterDims S4096x4096 S327680x2 S327680 where
  updateWindowDims := []
  insertedWindowDims := [0, 1]
  scatterDimsToOperandDims := [0, 1]
  indexVectorDim := 1
  wf := scatter_S4096x4096_S327680x2_S327680_n_01_01_1_wf
def scatter_S4096_S2048x1_S2048_n_0_0_1 : ScatterDims S4096 S2048x1 S2048 where
  updateWindowDims := []
  insertedWindowDims := [0]
  scatterDimsToOperandDims := [0]
  indexVectorDim := 1
  wf := scatter_S4096_S2048x1_S2048_n_0_0_1_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v25) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x4096 : Shape := ⟨2, ![512, 4096]⟩
abbrev S327680 : Shape := ⟨1, ![327680]⟩
abbrev S2048 : Shape := ⟨1, ![2048]⟩
abbrev S_ : Shape := ⟨0, ![]⟩
abbrev S327680x1 : Shape := ⟨2, ![327680, 1]⟩
abbrev S512x327680 : Shape := ⟨2, ![512, 327680]⟩
abbrev S327680x512 : Shape := ⟨2, ![327680, 512]⟩
abbrev S4096x512 : Shape := ⟨2, ![4096, 512]⟩
abbrev S4096 : Shape := ⟨1, ![4096]⟩
abbrev S2048x1 : Shape := ⟨2, ![2048, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S327680, .i32⟩
  | .hbm, ⟨2, _⟩ => ⟨S327680, .i32⟩
  | .hbm, ⟨3, _⟩ => ⟨S327680, .f32⟩
  | .hbm, ⟨4, _⟩ => ⟨S2048, .i32⟩
  | .hbm, ⟨5, _⟩ => ⟨S2048, .f32⟩
  | .hbm, ⟨6, _⟩ => ⟨S_, .i32⟩
  | .hbm, ⟨7, _⟩ => ⟨S327680, .i32⟩
  | .hbm, ⟨8, _⟩ => ⟨S327680, .i1⟩
  | .hbm, ⟨9, _⟩ => ⟨S_, .i32⟩
  | .hbm, ⟨10, _⟩ => ⟨S327680, .i32⟩
  | .hbm, ⟨11, _⟩ => ⟨S327680, .i32⟩
  | .hbm, ⟨12, _⟩ => ⟨S327680, .i32⟩
  | .hbm, ⟨13, _⟩ => ⟨S327680x1, .i32⟩
  | .hbm, ⟨14, _⟩ => ⟨S512x327680, .f32⟩
  | .hbm, ⟨15, _⟩ => ⟨S327680x512, .f32⟩
  | .hbm, ⟨16, _⟩ => ⟨S327680x1, .f32⟩
  | .hbm, ⟨17, _⟩ => ⟨S327680x512, .f32⟩
  | .hbm, ⟨18, _⟩ => ⟨S327680x512, .f32⟩
  | .hbm, ⟨19, _⟩ => ⟨S_, .f32⟩
  | .hbm, ⟨20, _⟩ => ⟨S4096x512, .f32⟩
  | .hbm, ⟨21, _⟩ => ⟨S327680x1, .i32⟩
  | .hbm, ⟨22, _⟩ => ⟨S4096x512, .f32⟩
  | .hbm, ⟨23, _⟩ => ⟨S512x4096, .f32⟩
  | .hbm, ⟨24, _⟩ => ⟨S_, .f32⟩
  | .hbm, ⟨25, _⟩ => ⟨S4096, .f32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S4096, .f32⟩
  | .hbm, ⟨35, _⟩ => ⟨S1x4096, .f32⟩
  | .hbm, ⟨36, _⟩ => ⟨S512x4096, .f32⟩
  | .hbm, ⟨37, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S327680 : S_.BroadcastsInDim S327680 (![] : Fin 0 → Fin S327680.rank)
  bcast_S327680_S327680x1_0 : S327680.BroadcastsInDim S327680x1 (![0] : Fin 1 → Fin S327680x1.rank)
  transposes_S512x327680_S327680x512_1_0 : S512x327680.Transposes [1, 0] S327680x512
  bcast_S327680x1_S327680x512_0_1 : S327680x1.BroadcastsInDim S327680x512 (![0, 1] : Fin 2 → Fin S327680x512.rank)
  bcast_S_S4096x512 : S_.BroadcastsInDim S4096x512 (![] : Fin 0 → Fin S4096x512.rank)
  transposes_S4096x512_S512x4096_1_0 : S4096x512.Transposes [1, 0] S512x4096
  bcast_S_S4096 : S_.BroadcastsInDim S4096 (![] : Fin 0 → Fin S4096.rank)
  bcast_S_S2048 : S_.BroadcastsInDim S2048 (![] : Fin 0 → Fin S2048.rank)
  bcast_S2048_S2048x1_0 : S2048.BroadcastsInDim S2048x1 (![0] : Fin 1 → Fin S2048x1.rank)
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  gather_S512x4096_S327680x1_S512x327680_0_1_n_n_1_1_5121_wf : GatherDims.WF S512x4096 S327680x1 S512x327680 [0] [1] [] [1] [] 1 ![512, 1]
  scatter_S4096x512_S327680x1_S327680x512_1_0_0_1_wf : ScatterDims.WF S4096x512 S327680x1 S327680x512 [1] [0] [0] 1
  scatter_S4096_S2048x1_S2048_n_0_0_1_wf : ScatterDims.WF S4096 S2048x1 S2048 [] [0] [0] 1

variable [Facts₀]

def gather_S512x4096_S327680x1_S512x327680_0_1_n_n_1_1_5121 : GatherDims S512x4096 S327680x1 S512x327680 where
  offsetDims := [0]
  collapsedSliceDims := [1]
  operandBatchingDims := []
  startIndicesBatchingDims := []
  startIndexMap := [1]
  indexVectorDim := 1
  sliceSizes := ![512, 1]
  wf := gather_S512x4096_S327680x1_S512x327680_0_1_n_n_1_1_5121_wf
def scatter_S4096x512_S327680x1_S327680x512_1_0_0_1 : ScatterDims S4096x512 S327680x1 S327680x512 where
  updateWindowDims := [1]
  insertedWindowDims := [0]
  scatterDimsToOperandDims := [0]
  indexVectorDim := 1
  wf := scatter_S4096x512_S327680x1_S327680x512_1_0_0_1_wf
def scatter_S4096_S2048x1_S2048_n_0_0_1 : ScatterDims S4096 S2048x1 S2048 where
  updateWindowDims := []
  insertedWindowDims := [0]
  scatterDimsToOperandDims := [0]
  indexVectorDim := 1
  wf := scatter_S4096_S2048x1_S2048_n_0_0_1_wf

class Facts : Prop extends Facts₀ where

variable [Facts]
-- ==== Proof.KernelPayload.lean ====
/-
  What one grid point computes, read entry by entry.

  A grid point holds three blocks: a block x of 512 rows by 4096 columns, a block w of 4096 rows by 512 columns and a
  bias row z of 512 entries. It multiplies x by w into a zero accumulator and adds the bias row to every row of the
  product. Over the extended reals the entry (p, q) of what it stores is therefore

      (sum over k < 4096 of x(p, k) * w(k, q)) + z(0, q).

  The matrix product is read through its dimension numbers: the left operand contracts its axis 1 and keeps its axis
  0, the right operand contracts its axis 0 and keeps its axis 1. The four lemmas below say, axis by axis, which
  coordinate of the output index or of the contraction index each operand reads.
-/
import proofs.«418960_j11175504904588_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- Two positions of one index that are the same natural number hold the same coordinate. -/
theorem coord_congr {s : Shape} (j : s.Idx) (p q : Nat) (hp : p < s.rank) (hq : q < s.rank) (h : p = q) :
    (j ⟨p, hp⟩).val = (j ⟨q, hq⟩).val := by subst h; rfl

/-- The left operand's row is the output's row. -/
theorem lhs_axis0 (j : S512x512.Idx) (k : dot_S512x4096_S4096x512_S512x512_1_0_0_1_n_n.contr.Idx) :
    (dot_S512x4096_S4096x512_S512x512_1_0_0_1_n_n.lhsIdx j k (0 : Fin S512x4096.rank)).val = (j 0).val := by
  unfold DotDims.lhsIdx
  rw [dif_neg (show ¬(0 : Fin S512x4096.rank) ∈ dot_S512x4096_S4096x512_S512x512_1_0_0_1_n_n.lhsBatch by decide),
    dif_pos (show (0 : Fin S512x4096.rank) ∈ dot_S512x4096_S4096x512_S512x512_1_0_0_1_n_n.lhsNonContracting by decide)]
  simp only [Fin.val_cast]
  exact coord_congr j _ _ _ _ (by decide)

/-- The left operand's column is the contracted coordinate. -/
theorem lhs_axis1 (j : S512x512.Idx) (k : dot_S512x4096_S4096x512_S512x512_1_0_0_1_n_n.contr.Idx) :
    (dot_S512x4096_S4096x512_S512x512_1_0_0_1_n_n.lhsIdx j k (1 : Fin S512x4096.rank)).val = (k ⟨0, by decide⟩).val :=
  dot_S512x4096_S4096x512_S512x512_1_0_0_1_n_n.lhsIdx_val_of_single (cl := (1 : Fin S512x4096.rank)) rfl j k

/-- The right operand's row is the contracted coordinate. -/
theorem rhs_axis0 (j : S512x512.Idx) (k : dot_S512x4096_S4096x512_S512x512_1_0_0_1_n_n.contr.Idx) :
    (dot_S512x4096_S4096x512_S512x512_1_0_0_1_n_n.rhsIdx j k (0 : Fin S4096x512.rank)).val = (k ⟨0, by decide⟩).val :=
  dot_S512x4096_S4096x512_S512x512_1_0_0_1_n_n.rhsIdx_val_of_single (cr := (0 : Fin S4096x512.rank)) rfl j k

/-- The right operand's column is the output's column. -/
theorem rhs_axis1 (j : S512x512.Idx) (k : dot_S512x4096_S4096x512_S512x512_1_0_0_1_n_n.contr.Idx) :
    (dot_S512x4096_S4096x512_S512x512_1_0_0_1_n_n.rhsIdx j k (1 : Fin S4096x512.rank)).val = (j 1).val := by
  unfold DotDims.rhsIdx
  rw [dif_neg (show ¬(1 : Fin S4096x512.rank) ∈ dot_S512x4096_S4096x512_S512x512_1_0_0_1_n_n.rhsBatch by decide),
    dif_pos (show (1 : Fin S4096x512.rank) ∈ dot_S512x4096_S4096x512_S512x512_1_0_0_1_n_n.rhsNonContracting by decide)]
  simp only [Fin.val_cast]
  exact coord_congr j _ _ _ _ (by decide)

/-- The product of the two blocks into a zero accumulator, at entry (p, q): row p of the left block against column q of
    the right block, summed over the 4096 shared coordinates. -/
theorem matmul_entry (a : FVec Ideal S512x4096 .bf16) (b : FVec Ideal S4096x512 .bf16) (p q : Fin 512) :
    matmul dot_S512x4096_S4096x512_S512x512_1_0_0_1_n_n none a b (constant (F := Ideal) S512x512 .f32 0x00000000#32) (ix2 p q)
      = ∑ k : Fin 4096, a (ix2 p k) * b (ix2 k q) := by
  show FloatOps.matmul _ none a b _ (ix2 p q) = _
  rw [Ideal.matmul_constant_zero_apply,
    ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have hl : dot_S512x4096_S4096x512_S512x512_1_0_0_1_n_n.lhsIdx (ix2 p q)
      ((contrEquiv1 dot_S512x4096_S4096x512_S512x512_1_0_0_1_n_n 4096 rfl rfl).symm k) = ix2 p k := by
    funext ax; apply Fin.ext
    match ax with
    | ⟨0, _⟩ => exact lhs_axis0 _ _
    | ⟨1, _⟩ => exact (lhs_axis1 _ _).trans hk
  have hr : dot_S512x4096_S4096x512_S512x512_1_0_0_1_n_n.rhsIdx (ix2 p q)
      ((contrEquiv1 dot_S512x4096_S4096x512_S512x512_1_0_0_1_n_n 4096 rfl rfl).symm k) = ix2 k q := by
    funext ax; apply Fin.ext
    match ax with
    | ⟨0, _⟩ => exact (rhs_axis0 _ _).trans hk
    | ⟨1, _⟩ => exact rhs_axis1 _ _
  rw [hl, hr]

/-- The bias row spread over the 512 rows, at entry (p, q): entry q of the row. -/
theorem bias_rows_entry (z : FVec Ideal S1x512 .f32) (p q : Fin 512) :
    broadcastTo S512x512 z broadcasts_S1x512_S512x512 (ix2 p q) = z (ix2 (0 : Fin 1) q) := by
  refine broadcastTo_apply z broadcasts_S1x512_S512x512 (ix2 p q) (ix2 (0 : Fin 1) q) fun a => ?_
  match a with
  | ⟨0, _⟩ => rfl
  | ⟨1, _⟩ => rfl

/-- What a grid point stores, at entry (p, q): the product's entry plus the bias entry of column q. -/
theorem point_entry (x0 : Vec Ideal S512x4096 .bf16) (x1 : Vec Ideal S4096x512 .bf16) (x2 : Vec Ideal S1x512 .f32)
    (p q : Fin 512) :
    k0_pay1 x0 x1 x2 (ix2 p q) = (∑ k : Fin 4096, x0 (ix2 p k) * x1 (ix2 k q)) + x2 (ix2 (0 : Fin 1) q) := by
  unfold k0_pay1
  simp only [shapeCast_self]
  rw [addf_apply, matmul_entry, bias_rows_entry]

end Cert.KernelIdeal.KValue

end
-- ==== Proof.MatBias.lean ====
/-
  A dense layer over the extended reals, as one function of three arrays: entry (b, r) of the result is row b of the
  input x [512, 4096] times column r of the weights w [4096, 4096], summed over the 4096 shared coordinates, plus entry r
  of the bias row bz [1, 4096].
-/
import Idealize.ShloMosaic.Lib.ValueIdx
import Idealize.ShloMosaic.PureOps.Ideal

noncomputable section

namespace Cert.Spmm

open Idealize.ShloMosaic Idealize.ShloMosaic.ValueIdx

/-- x · w + bz, index by index. -/
def matBias (x : (⟨2, ![512, 4096]⟩ : Shape).Idx → EReal) (w : (⟨2, ![4096, 4096]⟩ : Shape).Idx → EReal)
    (bz : (⟨2, ![1, 4096]⟩ : Shape).Idx → EReal) : (⟨2, ![512, 4096]⟩ : Shape).Idx → EReal :=
  fun i => (∑ k : Fin 4096, x (ix2 (i 0) k) * w (ix2 k (i 1))) + bz (ix2 (0 : Fin 1) (i 1))

theorem matBias_apply (x : (⟨2, ![512, 4096]⟩ : Shape).Idx → EReal) (w : (⟨2, ![4096, 4096]⟩ : Shape).Idx → EReal)
    (bz : (⟨2, ![1, 4096]⟩ : Shape).Idx → EReal) (b : Fin 512) (r : Fin 4096) :
    matBias x w bz (ix2 b r) = (∑ k : Fin 4096, x (ix2 b k) * w (ix2 k r)) + bz (ix2 (0 : Fin 1) r) := rfl

end Cert.Spmm

end
-- ==== Proof.KernelValue.lean ====
/-
  The output array of the kernel's run, as one function of the three arrays the region finds.

  The grid has 8 points. Point t holds the whole input x [512, 4096], columns 512 t … 512 t + 511 of the weights
  w [4096, 4096], entries 512 t … 512 t + 511 of the bias row [1, 4096], and writes back columns 512 t … 512 t + 511
  of the output [512, 4096]. What it writes at row b and column 512 t + q is

      (sum over k < 4096 of x(b, k) * w(k, 512 t + q)) + bias(0, 512 t + q),

  that is, entry (b, 512 t + q) of x · w + bias. So each point writes its block of ONE function of the whole arrays; the
  eight blocks tile the output (column r lies in the block of point r / 512), hence the output array ends as x · w + bias
  everywhere. No law of arithmetic is used beyond reading the sum where the blocks sit: the sum over the contracted
  coordinate is the same sum, term by term.
-/
import proofs.«418960_j11175504904588_1_alg».proof.Proof.Gen.KernelIdeal.Value
import proofs.«418960_j11175504904588_1_alg».proof.Proof.KernelPayload
import proofs.«418960_j11175504904588_1_alg».proof.Proof.MatBias
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The offsets of every access of the body are zero: each load and the store take their whole buffer. -/
theorem origin : (![0, 0] : Fin 2 → Nat) = fun _ => 0 := funext fun a => by fin_cases a <;> rfl

/-- Which block of its array each window holds at grid point t: the input x always its one block; the weights, the
    bias row and the output their t-th block of 512 columns. -/
theorem block_indices : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What a point stores at a block entry y is the dense layer's entry i of three arrays X, W, Z, as soon as the point's
    blocks read row (y 0) of x as row (i 0) of X, column (y 1) of w as column (i 1) of W, and entry (y 1) of the bias
    block as entry (i 1) of Z. -/
theorem point_entry_matBias (x0 : Vec Ideal S512x4096 .bf16) (x1 : Vec Ideal S4096x512 .bf16) (x2 : Vec Ideal S1x512 .f32)
    (X : S512x4096.Idx → EReal) (W : S4096x4096.Idx → EReal) (Z : S1x4096.Idx → EReal)
    (y : S512x512.Idx) (i : S512x4096.Idx)
    (hx : ∀ k : Fin 4096, x0 (ix2 (y 0) k) = X (ix2 (i 0) k))
    (hw : ∀ k : Fin 4096, x1 (ix2 k (y 1)) = W (ix2 k (i 1)))
    (hz : x2 (ix2 (0 : Fin 1) (y 1)) = Z (ix2 (0 : Fin 1) (i 1))) :
    k0_pay1 x0 x1 x2 y = Cert.Spmm.matBias X W Z i := by
  obtain ⟨p, q, rfl⟩ : ∃ (p q : Fin 512), y = ix2 p q := ⟨y 0, y 1, eq_ix2 y⟩
  have hx' : ∀ k : Fin 4096, x0 (ix2 p k) = X (ix2 (i 0) k) := hx
  have hw' : ∀ k : Fin 4096, x1 (ix2 k q) = W (ix2 k (i 1)) := hw
  have hz' : x2 (ix2 (0 : Fin 1) q) = Z (ix2 (0 : Fin 1) (i 1)) := hz
  rw [point_entry, hz', Finset.sum_congr rfl fun k _ => by rw [hx' k, hw' k]]
  rfl

/-- The x window's block at any point is the whole array: entry y of the block is entry y of the array, whatever the
    array holds. -/
theorem x_block_read (t : Fin cfg0.N) (A : S512x4096.Idx → EReal) (y i : S512x4096.Idx)
    (h0 : (i 0).val = (y 0).val) (h1 : (i 1).val = (y 1).val) :
    ((cfg0.win 0).blk t).view.read (Elt Ideal) A y = A i := by
  obtain ⟨e0, e1, -⟩ := block_indices t
  rw [View.read_apply]
  show A _ = A _
  congr 1
  funext a
  apply Fin.ext
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The weight window's block at point t is columns 512 t … 512 t + 511 of its array: entry (k, q) of the block is
    entry (k, 512 t + q) of the array, whatever the array holds. -/
theorem w_block_read (t : Fin cfg0.N) (A : S4096x4096.Idx → EReal) (y : S4096x512.Idx) (i : S4096x4096.Idx)
    (h0 : (i 0).val = (y 0).val) (h1 : (i 1).val = 512 * t.val + (y 1).val) :
    ((cfg0.win 1).blk t).view.read (Elt Ideal) A y = A i := by
  obtain ⟨-, -, e0, e1, -⟩ := block_indices t
  rw [View.read_apply]
  show A _ = A _
  congr 1
  funext a
  apply Fin.ext
  match a with
  | ⟨0, _⟩ => show win0_1.index t (0 : Fin 2) * 4096 + 1 * (y 0).val = (i 0).val; omega
  | ⟨1, _⟩ => show win0_1.index t (1 : Fin 2) * 512 + 1 * (y 1).val = (i 1).val; omega

/-- The bias window's block at point t is entries 512 t … 512 t + 511 of the bias row, whatever the row holds. -/
theorem z_block_read (t : Fin cfg0.N) (A : S1x4096.Idx → EReal) (y : S1x512.Idx) (i : S1x4096.Idx)
    (h0 : (i 0).val = (y 0).val) (h1 : (i 1).val = 512 * t.val + (y 1).val) :
    ((cfg0.win 2).blk t).view.read (Elt Ideal) A y = A i := by
  obtain ⟨-, -, -, -, e0, e1, -⟩ := block_indices t
  rw [View.read_apply]
  show A _ = A _
  congr 1
  funext a
  apply Fin.ext
  match a with
  | ⟨0, _⟩ => show win0_2.index t (0 : Fin 2) * 1 + 1 * (y 0).val = (i 0).val; omega
  | ⟨1, _⟩ => show win0_2.index t (1 : Fin 2) * 512 + 1 * (y 1).val = (i 1).val; omega

/-- Entry y of the output's block at point t is the array entry in the same row and in column 512 t + (y 1). -/
theorem out_block_coords (t : Fin cfg0.N) (y : S512x512.Idx) :
    ((((cfg0.win 3).blk t).view.emb y : S512x4096.Idx) 0).val = (y 0).val
    ∧ ((((cfg0.win 3).blk t).view.emb y : S512x4096.Idx) 1).val = 512 * t.val + (y 1).val := by
  obtain ⟨-, -, -, -, -, -, e0, e1⟩ := block_indices t
  constructor
  · show win0_3.index t (0 : Fin 2) * 512 + 1 * (y 0).val = _; omega
  · show win0_3.index t (1 : Fin 2) * 512 + 1 * (y 1).val = _; omega

/-- WHAT POINT t WRITES BACK is block t of the dense layer of the three arrays the region finds: rows of x against the
    point's 512 columns of the weights, plus the point's 512 bias entries. -/
theorem point_writes (c : Dev nD) (t : Fin cfg0.N) :
    (dats m 0 c).flushed 3 t = ((cfg0.win 3).blk t).view.read (Elt Ideal)
      (Cert.Spmm.matBias (V m c main_v25) (V m c main_v15) (V m c main_v24)) := by
  rw [Value.flushed3]
  unfold out0_3
  rw [View.canon_unit_zero origin]
  simp only [View.ld_unit_zero (S := S512x4096) origin, View.ld_unit_zero (S := S4096x512) origin, View.ld_unit_zero (S := S1x512) origin]
  funext j
  obtain ⟨r0, r1⟩ := out_block_coords t j
  refine point_entry_matBias (iblk m c 0 t) (iblk m c 1 t) (iblk m c 2 t) (V m c main_v25) (V m c main_v15) (V m c main_v24)
    j (((cfg0.win 3).blk t).view.emb j) (fun k => ?_) (fun k => ?_) ?_
  · exact x_block_read t (V m c main_v25) _ _ r0 rfl
  · exact w_block_read t (V m c main_v15) _ _ rfl r1
  · exact z_block_read t (V m c main_v24) _ _ rfl r1

/-- Which array entries point t's output block holds: on each axis, the block's index times the block's extent, and the
    block's extent from there. -/
theorem mem_out_block (t : Fin cfg0.N) (i : S512x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v26).slice (win0_3.rect t)).set ↔ _
  rw [View.set_slice_whole, Rect.mem_set_unit]
  exact Iff.rfl

/-- The eight output blocks tile the array: column r lies in the block of point r / 512, and every row lies in every
    block. -/
theorem blocks_cover (i : S512x4096.Idx) :
    ∃ t : Fin cfg0.N, (cfg0.win 3).flush t = true ∧ i ∈ ((cfg0.win 3).blk t).view.set := by
  have h0 : (i 0).val < 512 := (i 0).isLt
  have h1 : (i 1).val < 4096 := (i 1).isLt
  have hN : cfg0.N = 8 := N_0
  obtain ⟨t, ht⟩ : ∃ t : Fin cfg0.N, t.val = (i 1).val / 512 := ⟨⟨(i 1).val / 512, by omega⟩, rfl⟩
  obtain ⟨-, -, -, -, -, -, e0, e1⟩ := block_indices t
  refine ⟨t, flush0_3 t, ?_⟩
  rw [mem_out_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE OUTPUT ARRAY after the run is the dense layer of the three arrays the region finds. -/
theorem out_array (c : Dev nD) :
    (dats m 0 c).arrAt 3 cfg0.N = Cert.Spmm.matBias (V m c main_v25) (V m c main_v15) (V m c main_v24) :=
  (dats m 0 c).arrAt_eq_of_cover 3 (Cert.Spmm.matBias (V m c main_v25) (V m c main_v15) (V m c main_v24))
    (fun t _ => point_writes m c t) blocks_cover

/-- The run, read: the output array holds x · w + bias, entry by entry, of the arrays the region finds, and the six
    arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v26) = Cert.Spmm.matBias (V m c main_v25) (V m c main_v15) (V m c main_v24)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (out_array m c), (h c).2⟩) (Value.run_blocks m ρ)

end Cert.KernelIdeal.KValue

end
-- ==== Proof.LibPointScatter.lean ====
/-
  A general lemma: StableHLO's accumulating scatter of SCALARS into a rank-2 table at PAIRS of scatter indices, read at
  an index, over the extended reals.

  What jnp's table.at[i0, i1].add(v) lowers to for a table [N, M] and two integer vectors of length R: a scatter with
  an add body whose scatter indices are the pairs laid out as an [R, 2] array (the index vector on the last axis, of
  length two), both of the table's axes inserted and scatter-indexed, the updates a vector [R] with no window axis.
  Update e lands on table element (idx[e, 0], idx[e, 1]), both read as signed integers, and is dropped when either is
  outside the table. Over the extended reals the result at (a, b) is the table's element there plus the sum of the
  updates e whose pair is (a, b).
-/
import Idealize.ShloMosaic.Lib.ValueIdx
import Idealize.ShloMosaic.PureOps.Ideal
import Idealize.ShloMosaic.PureOps.Contract

noncomputable section

namespace Cert.PointScatter

open Idealize.ShloMosaic Idealize.ShloMosaic.ValueIdx

/-- Those dimension numbers, for a table [N, M], scatter indices [R, 2] and updates [R]; the conditions wf are decided
    on a program's literal shapes. -/
abbrev pointDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section
variable {N M R w : Nat}
  (wf : ScatterDims.WF ⟨2, ![N, M]⟩ ⟨2, ![R, 2]⟩ ⟨1, ![R]⟩ [] [0, 1] [0, 1] 1)
  (idx : IVec ⟨2, ![R, 2]⟩ w) (e : Fin R)

/-- Both of the table's axes are inserted, so none is kept: an update has no window coordinate. -/
theorem not_mem_sKept (a : Fin 2) : ¬ a ∈ (pointDims N M R wf).sKept := by
  match a with
  | ⟨0, _⟩ => simp [ScatterDims.sKept, Shape.kept]
  | ⟨1, _⟩ => simp [ScatterDims.sKept, Shape.kept]

theorem window_eq_zero (a : Fin 2) : (pointDims N M R wf).window (ix1 e) a = 0 := by
  unfold ScatterDims.window
  rw [dif_neg (not_mem_sKept wf a)]

/-- On the table's axis 0 update e starts at the first word of its pair, read signed. -/
theorem start_zero : (pointDims N M R wf).start (ix1 e) idx (0 : Fin 2) = (idx (ix2 e (0 : Fin 2))).toInt := by
  unfold ScatterDims.start
  rw [dif_pos (show (0 : Fin 2) ∈ (pointDims N M R wf).scatterDimsToOperandDims from List.mem_cons_self)]
  have hsi : (pointDims N M R wf).siIdx (ix1 e) ⟨List.idxOf (0 : Fin 2) (pointDims N M R wf).scatterDimsToOperandDims,
      List.idxOf_lt_length_iff.2 List.mem_cons_self⟩ = ix2 e (0 : Fin 2) := by
    funext b; refine Fin.ext ?_
    match b with
    | ⟨0, _⟩ => rfl
    | ⟨1, _⟩ => rfl
  rw [hsi]

/-- On the table's axis 1 it starts at the second word of its pair, read signed. -/
theorem start_one : (pointDims N M R wf).start (ix1 e) idx (1 : Fin 2) = (idx (ix2 e (1 : Fin 2))).toInt := by
  unfold ScatterDims.start
  rw [dif_pos (show (1 : Fin 2) ∈ (pointDims N M R wf).scatterDimsToOperandDims from
    List.mem_cons_of_mem _ List.mem_cons_self)]
  have hsi : (pointDims N M R wf).siIdx (ix1 e) ⟨List.idxOf (1 : Fin 2) (pointDims N M R wf).scatterDimsToOperandDims,
      List.idxOf_lt_length_iff.2 (List.mem_cons_of_mem _ List.mem_cons_self)⟩ = ix2 e (1 : Fin 2) := by
    funext b; refine Fin.ext ?_
    match b with
    | ⟨0, _⟩ => rfl
    | ⟨1, _⟩ => rfl
  rw [hsi]

end

section
variable {N M R w : Nat}
  (wf : ScatterDims.WF ⟨2, ![N, M]⟩ ⟨2, ![R, 2]⟩ ⟨1, ![R]⟩ [] [0, 1] [0, 1] 1)
  (idx : IVec ⟨2, ![R, 2]⟩ w)

/-- WHERE AN UPDATE LANDS: update e lands on table element (a, b) exactly when its pair of scatter indices, read
    signed, is (a, b). Start plus window coordinate is the pair itself; it is inside the table exactly when both words
    are in range, which a < N and b < M give. -/
theorem resultIdx?_eq_some_iff (e : Fin R) (a : Fin N) (b : Fin M) :
    (pointDims N M R wf).resultIdx? (ix1 e) idx = some (ix2 a b)
      ↔ (idx (ix2 e (0 : Fin 2))).toInt = (a.val : Int) ∧ (idx (ix2 e (1 : Fin 2))).toInt = (b.val : Int) := by
  unfold ScatterDims.resultIdx?
  constructor
  · intro hEq
    split at hEq
    · rename_i h
      have hf := Option.some.inj hEq
      have h0 : ((pointDims N M R wf).start (ix1 e) idx (0 : Fin 2)
          + ((pointDims N M R wf).window (ix1 e) (0 : Fin 2) : Nat)).toNat = a.val :=
        congrArg (fun f : (⟨2, ![N, M]⟩ : Shape).Idx => (f (0 : Fin 2)).val) hf
      have h1 : ((pointDims N M R wf).start (ix1 e) idx (1 : Fin 2)
          + ((pointDims N M R wf).window (ix1 e) (1 : Fin 2) : Nat)).toNat = b.val :=
        congrArg (fun f : (⟨2, ![N, M]⟩ : Shape).Idx => (f (1 : Fin 2)).val) hf
      have hb0 : 0 ≤ (pointDims N M R wf).start (ix1 e) idx (0 : Fin 2)
          + ((pointDims N M R wf).window (ix1 e) (0 : Fin 2) : Nat) := (h (0 : Fin 2)).1
      have hb1 : 0 ≤ (pointDims N M R wf).start (ix1 e) idx (1 : Fin 2)
          + ((pointDims N M R wf).window (ix1 e) (1 : Fin 2) : Nat) := (h (1 : Fin 2)).1
      rw [start_zero, window_eq_zero] at h0 hb0
      rw [start_one, window_eq_zero] at h1 hb1
      exact ⟨by omega, by omega⟩
    · exact absurd hEq (by simp)
  · rintro ⟨h0, h1⟩
    have hall : ∀ c : Fin 2, 0 ≤ (pointDims N M R wf).start (ix1 e) idx c + ((pointDims N M R wf).window (ix1 e) c : Nat)
        ∧ (pointDims N M R wf).start (ix1 e) idx c + ((pointDims N M R wf).window (ix1 e) c : Nat)
            < ((⟨2, ![N, M]⟩ : Shape).size c : Nat) := by
      intro c
      match c with
      | ⟨0, _⟩ =>
        show 0 ≤ (pointDims N M R wf).start (ix1 e) idx (0 : Fin 2) + ((pointDims N M R wf).window (ix1 e) (0 : Fin 2) : Nat)
          ∧ (pointDims N M R wf).start (ix1 e) idx (0 : Fin 2) + ((pointDims N M R wf).window (ix1 e) (0 : Fin 2) : Nat) < (N : Int)
        rw [start_zero, window_eq_zero, h0]
        have := a.isLt
        omega
      | ⟨1, _⟩ =>
        show 0 ≤ (pointDims N M R wf).start (ix1 e) idx (1 : Fin 2) + ((pointDims N M R wf).window (ix1 e) (1 : Fin 2) : Nat)
          ∧ (pointDims N M R wf).start (ix1 e) idx (1 : Fin 2) + ((pointDims N M R wf).window (ix1 e) (1 : Fin 2) : Nat) < (M : Int)
        rw [start_one, window_eq_zero, h1]
        have := b.isLt
        omega
    rw [dif_pos hall]
    refine congrArg some (funext fun c => Fin.ext ?_)
    match c with
    | ⟨0, _⟩ =>
      show ((pointDims N M R wf).start (ix1 e) idx (0 : Fin 2) + ((pointDims N M R wf).window (ix1 e) (0 : Fin 2) : Nat)).toNat = a.val
      rw [start_zero, window_eq_zero, h0]
      omega
    | ⟨1, _⟩ =>
      show ((pointDims N M R wf).start (ix1 e) idx (1 : Fin 2) + ((pointDims N M R wf).window (ix1 e) (1 : Fin 2) : Nat)).toNat = b.val
      rw [start_one, window_eq_zero, h1]
      omega

end

/-- THE ACCUMULATING SCATTER READ AT (a, b), over the extended reals: the table there plus the updates e whose pair of
    scatter indices, read signed, is (a, b). -/
theorem scatterAdd_points_apply {N M R w : Nat} {φ : FTy}
    (wf : ScatterDims.WF ⟨2, ![N, M]⟩ ⟨2, ![R, 2]⟩ ⟨1, ![R]⟩ [] [0, 1] [0, 1] 1)
    (x : FVec Ideal ⟨2, ![N, M]⟩ φ) (idx : IVec ⟨2, ![R, 2]⟩ w) (upd : FVec Ideal ⟨1, ![R]⟩ φ)
    (a : Fin N) (b : Fin M) :
    Host.scatterAdd (pointDims N M R wf) x idx upd (ix2 a b)
      = x (ix2 a b) + ∑ e ∈ Finset.univ.filter (fun e : Fin R =>
          (idx (ix2 e (0 : Fin 2))).toInt = (a.val : Int) ∧ (idx (ix2 e (1 : Fin 2))).toInt = (b.val : Int)),
          upd (ix1 e) := by
  -- The scatter at (a, b) is the table there plus the sum of the updates that land there; e ↦ (e) is a bijection from
  -- the rows whose pair is (a, b) onto the update indices that land at (a, b), with inverse j ↦ j 0.
  unfold Host.scatterAdd
  rw [Ideal.hostScatterAdd_def]
  unfold Ideal.hostScatterAdd
  refine congrArg (x (ix2 a b) + ·) ?_
  symm
  refine Finset.sum_nbij' (fun e : Fin R => (ix1 e : (⟨1, ![R]⟩ : Shape).Idx))
    (fun j : (⟨1, ![R]⟩ : Shape).Idx => (j (0 : Fin 1) : Fin R)) ?_ ?_ ?_ ?_ ?_
  · intro e he
    rw [Finset.mem_filter] at he ⊢
    exact ⟨Finset.mem_univ _, (resultIdx?_eq_some_iff wf idx e a b).mpr he.2⟩
  · intro j hj
    obtain ⟨e, rfl⟩ : ∃ e, j = ix1 e := ⟨j 0, eq_ix1 j⟩
    rw [Finset.mem_filter] at hj ⊢
    exact ⟨Finset.mem_univ _, (resultIdx?_eq_some_iff wf idx e a b).mp hj.2⟩
  · intro e _
    rfl
  · intro j _
    exact (eq_ix1 j).symm
  · intro e _
    rfl

end Cert.PointScatter

end
-- ==== Proof.SpmmLaw.lean ====
/-
  The algebra that joins a dense and a sparse reading of one matrix product, over the extended reals.

  A sparse matrix is given by K triples (row, column, value). Its dense form has at (c, r) the sum of the values whose
  pair is (c, r); a row vector X times that dense column r is  Σ_c X c · (Σ_{k : col k = c, row k = r} v k).  The sparse
  reading sums, over the triples of row r, X (col k) · v k. For REAL X and v the two agree: the product distributes over
  the inner sum, and the double sum over (c, k in the fibre of c) is the single sum over k. On the extended reals
  distributivity fails at the infinities, so finiteness of X and v is a hypothesis.

  Also here: jnp's wrap of a negative index (idx < 0 selects idx + n) is the identity on an index that is not negative.
-/
import Idealize.ShloMosaic.PureOps.Ideal

noncomputable section

namespace Cert.Spmm

open Idealize.ShloMosaic

open scoped BigOperators

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: a vector times the dense column is the sparse sum. The double sum over a column c and the triples
    in its fibre is the sum over all triples (of the wanted row). -/
theorem dense_eq_sparse_real {K C : Type} [Fintype K] [Fintype C] [DecidableEq C] (xr : C → ℝ) (vr : K → ℝ)
    (col : K → C) (P : K → Prop) [DecidablePred P] :
    ∑ c, xr c * ∑ k ∈ Finset.univ.filter (fun k => col k = c ∧ P k), vr k
      = ∑ k ∈ Finset.univ.filter P, xr (col k) * vr k := by
  rw [← Finset.sum_fiberwise (Finset.univ.filter P) col (fun k => xr (col k) * vr k)]
  refine Finset.sum_congr rfl fun c _ => ?_
  rw [Finset.mul_sum, Finset.filter_filter]
  refine Finset.sum_congr ?_ ?_
  · ext k
    simp only [Finset.mem_filter, Finset.mem_univ, true_and]
    exact And.comm
  · intro k hk
    rw [(Finset.mem_filter.mp hk).2.2]

/-- Over the extended reals, for finite X and v. -/
theorem dense_eq_sparse {K C : Type} [Fintype K] [Fintype C] [DecidableEq C] (X : C → EReal) (v : K → EReal)
    (hX : ∀ c, X c ≠ ⊤ ∧ X c ≠ ⊥) (hv : ∀ k, v k ≠ ⊤ ∧ v k ≠ ⊥)
    (col : K → C) (P : K → Prop) [DecidablePred P] :
    ∑ c, X c * ∑ k ∈ Finset.univ.filter (fun k => col k = c ∧ P k), v k
      = ∑ k ∈ Finset.univ.filter P, X (col k) * v k := by
  have hXr : ∀ c, X c = (((X c).toReal : ℝ) : EReal) := fun c => (EReal.coe_toReal (hX c).1 (hX c).2).symm
  have hvr : ∀ k, v k = (((v k).toReal : ℝ) : EReal) := fun k => (EReal.coe_toReal (hv k).1 (hv k).2).symm
  have hl : ∀ c, X c * ∑ k ∈ Finset.univ.filter (fun k => col k = c ∧ P k), v k
      = ((((X c).toReal * ∑ k ∈ Finset.univ.filter (fun k => col k = c ∧ P k), (v k).toReal : ℝ)) : EReal) := by
    intro c
    rw [EReal.coe_mul, coe_sum, ← hXr c]
    exact congrArg (X c * ·) (Finset.sum_congr rfl fun k _ => hvr k)
  have hr : ∀ k, X (col k) * v k = ((((X (col k)).toReal * (v k).toReal : ℝ)) : EReal) := by
    intro k
    rw [EReal.coe_mul, ← hXr, ← hvr]
  rw [Finset.sum_congr rfl fun c _ => hl c, Finset.sum_congr rfl fun k _ => hr k, ← coe_sum, ← coe_sum]
  exact congrArg _ (dense_eq_sparse_real (fun c => (X c).toReal) (fun k => (v k).toReal) col P)

/-- jnp's index normalisation on one 32-bit word: a negative index counts from the end of an axis of extent 4096. -/
def wrapw (w : BitVec 32) : BitVec 32 :=
  Scalar.select (IntOp.cmpi .slt w 0#32) (IntOp.addi w 4096#32) w

/-- An index that is not negative is left alone. -/
theorem wrapw_of_nonneg (w : BitVec 32) (h : 0 ≤ w.toInt) : wrapw w = w := by
  have hn : w.slt 0#32 = false := by
    rw [← Bool.not_eq_true, BitVec.slt_iff_toInt_lt]
    have : (0#32 : BitVec 32).toInt = 0 := by decide
    omega
  have hc : IntOp.cmpi .slt w 0#32 = 0#1 := by
    show BitVec.ofBool (w.slt 0#32) = 0#1
    rw [hn]; rfl
  unfold wrapw
  rw [hc]
  exact if_neg (by decide)

/-- The column a start word names once a gather has clamped it into [0, 4095]. -/
def clampCol (w : BitVec 32) : Fin 4096 := ⟨min w.toInt.toNat 4095, by omega⟩

/-- A word already in [0, 4096) names its own value. -/
theorem clampCol_val (w : BitVec 32) (h0 : 0 ≤ w.toInt) (h1 : w.toInt < 4096) : ((clampCol w).val : Int) = w.toInt := by
  show ((min w.toInt.toNat 4095 : Nat) : Int) = w.toInt
  omega

end Cert.Spmm

end
-- ==== Proof.KernelHost.lean ====
/-
  What the kernel's region finds in its three input arrays, as functions of @main's arguments.

  Before the region the program (i) densifies the sparse weights: into a zero [4096, 4096] table it adds each triple's
  value at the pair (column word, row word), both words first normalised (a negative word counted from the end), a pair
  outside the table dropped; the table is then narrowed to bf16, which over the extended reals changes nothing;
  (ii) densifies the sparse bias the same way into a zero [4096] vector and lays it out as a [1, 4096] row;
  (iii) narrows the input to bf16. Read at an index: the table at (c, r) is the sum of the values of the triples whose
  normalised pair is (c, r); the bias row at (0, r) is the bias vector at r; the narrowed input is the input.
-/
import proofs.«418960_j11175504904588_1_alg».proof.Proof.Gen.KernelIdeal.Frame
import proofs.«418960_j11175504904588_1_alg».proof.Proof.LibPointScatter
import proofs.«418960_j11175504904588_1_alg».proof.Proof.SpmmLaw
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
  Idealize.ShloMosaic.StableHlo Idealize.ShloMosaic.ValueIdx Cert.Spmm

/-! ### The three arrays as terms of the arguments -/

/-- The index normalisation applied to a whole vector of 327680 words. -/
def wrapv (x : IVec S327680 32) : IVec S327680 32 :=
  select (cmpi .slt x (broadcastInDim S327680 ![] bcast_S_S327680 (constantI S_ 32 0#32)))
    (addi x (broadcastInDim S327680 ![] bcast_S_S327680 (constantI S_ 32 4096#32))) x

/-- The densified weights: the triples' values added into a zero table at their (column, row) pairs. -/
def dense (x1 x2 : IVec S327680 32) (x3 : FVec Ideal S327680 .f32) : FVec Ideal S4096x4096 .f32 :=
  Host.scatterAdd scatter_S4096x4096_S327680x2_S327680_n_01_01_1
    (broadcastInDim S4096x4096 ![] bcast_S_S4096x4096 (constant S_ .f32 0#32))
    (concatenate S327680x2 1
      [⟨S327680x1, broadcastInDim S327680x1 ![0] bcast_S327680_S327680x1_0 (wrapv x2)⟩,
       ⟨S327680x1, broadcastInDim S327680x1 ![0] bcast_S327680_S327680x1_0 (wrapv x1)⟩]
      concatenates_S327680x1_S327680x1_S327680x2_d1) x3

/-- The densified bias: the sparse bias values added into a zero vector at their (normalised) indices. -/
def biasvec (x4 : IVec S2048 32) (x5 : FVec Ideal S2048 .f32) : FVec Ideal S4096 .f32 :=
  Host.scatterAdd scatter_S4096_S2048x1_S2048_n_0_0_1
    (broadcastInDim S4096 ![] bcast_S_S4096 (constant S_ .f32 0#32))
    (broadcastInDim S2048x1 ![0] bcast_S2048_S2048x1_0
      (select (cmpi .slt x4 (broadcastInDim S2048 ![] bcast_S_S2048 (constantI S_ 32 0#32)))
        (addi x4 (broadcastInDim S2048 ![] bcast_S_S2048 (constantI S_ 32 4096#32))) x4)) x5

variable (m : (ℓ : Loc nD τ sig) → Buf (Elt Ideal) ℓ)

/-- The region's first array is the input, narrowed. -/
theorem V_input (c : Dev nD) :
    (V m c main_v25 : S512x4096.Idx → EReal)
      = (truncf .bf16 (m ((c : Thread nD τ).loc main_arg0) : FVec Ideal S512x4096 .f32) bitsLt_bf16_f32 : FVec Ideal S512x4096 .bf16) := by
  dsimp only [Gen.V, Gen.hostOps0]
  after_results

set_option maxHeartbeats 4000000 in
/-- The region's second array is the densified weights, narrowed. -/
theorem V_weights (c : Dev nD) :
    (V m c main_v15 : S4096x4096.Idx → EReal)
      = truncf .bf16 (dense (m ((c : Thread nD τ).loc main_arg1)) (m ((c : Thread nD τ).loc main_arg2))
          (m ((c : Thread nD τ).loc main_arg3))) bitsLt_bf16_f32 := by
  dsimp only [Gen.V, Gen.hostOps0]
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

set_option maxHeartbeats 4000000 in
/-- The region's third array is the densified bias laid out as a row. -/
theorem V_biasrow (c : Dev nD) :
    (V m c main_v24 : S1x4096.Idx → EReal)
      = shapeCast S1x4096 (biasvec (m ((c : Thread nD τ).loc main_arg4)) (m ((c : Thread nD τ).loc main_arg5)))
          shapeCasts_S4096_S1x4096 := by
  dsimp only [Gen.V, Gen.hostOps0]
  after_results_simp
  rfl

/-! ### Read at an index -/

theorem wrapv_apply (x : IVec S327680 32) (e : Fin 327680) : wrapv x (ix1 e) = wrapw (x (ix1 e)) := rfl

/-- A vector laid out as an [n, 1] column, read at (e, 0). -/
theorem column_apply (y : IVec S327680 32) (e : Fin 327680) :
    broadcastInDim S327680x1 ![0] bcast_S327680_S327680x1_0 y (ix2 e (0 : Fin 1)) = y (ix1 e) :=
  broadcastInDim_apply _ bcast_S327680_S327680x1_0 y (ix2 e (0 : Fin 1)) (ix1 e) (fun a => match a with
    | ⟨0, _⟩ => by show e.val = if (327680 : Nat) = 1 then 0 else e.val; rw [if_neg (by decide)])

/-- Two columns side by side: at (e, 0) the first … -/
theorem pair_left (A B : IVec S327680x1 32) (e : Fin 327680) :
    concatenate S327680x2 1 [⟨S327680x1, A⟩, ⟨S327680x1, B⟩] concatenates_S327680x1_S327680x1_S327680x2_d1
      (ix2 e (0 : Fin 2)) = A (ix2 e (0 : Fin 1)) :=
  concatenate_pair_apply_left (t := S327680x2) (s₁ := S327680x1) (s₂ := S327680x1) (1 : Fin 2) A B
    concatenates_S327680x1_S327680x1_S327680x2_d1 (ix2 e (0 : Fin 2)) rfl (ix2 e (0 : Fin 1))
    (fun b => by match b with | ⟨0, _⟩ => rfl | ⟨1, _⟩ => rfl)

/-- … and at (e, 1) the second. -/
theorem pair_right (A B : IVec S327680x1 32) (e : Fin 327680) :
    concatenate S327680x2 1 [⟨S327680x1, A⟩, ⟨S327680x1, B⟩] concatenates_S327680x1_S327680x1_S327680x2_d1
      (ix2 e (1 : Fin 2)) = B (ix2 e (0 : Fin 1)) :=
  concatenate_pair_apply_right (t := S327680x2) (s₁ := S327680x1) (s₂ := S327680x1) (1 : Fin 2) A B
    concatenates_S327680x1_S327680x1_S327680x2_d1 (ix2 e (1 : Fin 2)) rfl rfl (ix2 e (0 : Fin 1))
    (fun b hb => by
      match b with
      | ⟨0, _⟩ => rfl
      | ⟨1, _⟩ => exact absurd rfl hb) rfl

/-- The table at (a, r): the values of the triples whose normalised (column, row) pair is (a, r). -/
theorem dense_apply (x1 x2 : IVec S327680 32) (x3 : FVec Ideal S327680 .f32) (a r : Fin 4096) :
    dense x1 x2 x3 (ix2 a r)
      = ∑ e ∈ Finset.univ.filter (fun e : Fin 327680 =>
          (wrapw (x2 (ix1 e))).toInt = (a.val : Int) ∧ (wrapw (x1 (ix1 e))).toInt = (r.val : Int)), x3 (ix1 e) := by
  unfold dense
  have hd : scatter_S4096x4096_S327680x2_S327680_n_01_01_1
      = Cert.PointScatter.pointDims 4096 4096 327680 Facts₀.scatter_S4096x4096_S327680x2_S327680_n_01_01_1_wf := rfl
  rw [hd, Cert.PointScatter.scatterAdd_points_apply]
  have hz : (broadcastInDim S4096x4096 ![] bcast_S_S4096x4096 (constant (F := Ideal) S_ .f32 0#32)) (ix2 a r) = 0 :=
    Ideal.ofBits_zero_f32
  rw [hz, zero_add]
  -- the pair of words of triple e: the first column of the index array holds the column word, the second the row word
  simp only [pair_left, pair_right]
  have hc : ∀ (x : IVec S327680 32) (e : Fin 327680),
      broadcastInDim S327680x1 ![0] bcast_S327680_S327680x1_0 (wrapv x) (ix2 e (0 : Fin 1)) = wrapw (x (ix1 e)) :=
    fun x e => (column_apply (wrapv x) e).trans (wrapv_apply x e)
  refine Finset.sum_congr (Finset.filter_congr fun e _ => ?_) fun _ _ => rfl
  exact Iff.of_eq (congrArg₂ (fun u v : BitVec 32 => u.toInt = (a.val : Int) ∧ v.toInt = (r.val : Int)) (hc x2 e) (hc x1 e))

/-- The bias row at (0, r) is the bias vector at r. -/
theorem biasrow_apply (v : S4096.Idx → EReal) (r : Fin 4096) :
    shapeCast S1x4096 v shapeCasts_S4096_S1x4096 (ix2 (0 : Fin 1) r) = v (ix1 r) := by
  refine (shapeCast_addUnit_apply ![4096] v shapeCasts_S4096_S1x4096 (ix2 (0 : Fin 1) r)).trans (congrArg v ?_)
  funext a
  match a with
  | ⟨0, _⟩ => rfl

end Cert.KernelIdeal.HostValue

end
-- ==== Proof.LibColGather.lean ====
/-
  A general lemma: StableHLO's gather of COLUMNS of a table at a column of start indices, read at an index.

  What jnp's table[:, idx] lowers to for a rank-2 table [B, N] and an integer vector idx of length R: a gather whose
  start indices are the vector laid out as an [R, 1] column (the index vector on the last axis, of length one), the
  table's axis 1 collapsed and start-indexed, its axis 0 the result's one offset axis, slices of one whole column. The
  result element (b, r) is the table's element (b, col), where col is the start index idx[r, 0] read as a signed
  integer and clamped into [0, N - 1], as StableHLO's gather clamps every start index.
-/
import Idealize.ShloMosaic.Lib.ValueIdx

noncomputable section

namespace Cert.ColGather

open Idealize.ShloMosaic Idealize.ShloMosaic.ValueIdx

variable {α : Type}

/-- Those dimension numbers, for a table [B, N], start indices [R, 1] and a result [B, R]; the conditions wf are
    decided on a program's literal shapes. -/
abbrev colDims (B N R : Nat)
    (wf : GatherDims.WF ⟨2, ![B, N]⟩ ⟨2, ![R, 1]⟩ ⟨2, ![B, R]⟩ [0] [1] [] [1] [] 1 ![B, 1]) :
    GatherDims ⟨2, ![B, N]⟩ ⟨2, ![R, 1]⟩ ⟨2, ![B, R]⟩ where
  offsetDims := [0]
  collapsedSliceDims := [1]
  operandBatchingDims := []
  startIndicesBatchingDims := []
  startIndexMap := [1]
  indexVectorDim := 1
  sliceSizes := ![B, 1]
  wf := wf

section
variable {B N R w : Nat}
  (wf : GatherDims.WF ⟨2, ![B, N]⟩ ⟨2, ![R, 1]⟩ ⟨2, ![B, R]⟩ [0] [1] [] [1] [] 1 ![B, 1])
  (idx : IVec ⟨2, ![R, 1]⟩ w) (b : Fin B) (r : Fin R)

/-- The table's row axis is not start-indexed … -/
theorem zero_not_mem_startIndexMap : ¬ (0 : Fin 2) ∈ (colDims B N R wf).startIndexMap := fun h =>
  absurd (congrArg Fin.val (List.mem_singleton.mp h)) Nat.zero_ne_one

/-- … and is kept (neither collapsed nor batching). -/
theorem zero_mem_sKept : (0 : Fin 2) ∈ (colDims B N R wf).sKept :=
  (GatherDims.mem_sKept _ _).mpr ⟨fun h => absurd (congrArg Fin.val (List.mem_singleton.mp h)) Nat.zero_ne_one, List.not_mem_nil⟩

/-- On the ROW axis the operand index is the result's offset coordinate: not start-indexed (start 0), read by the
    result's axis 0. -/
theorem operandIdx_row :
    ((colDims B N R wf).operandIdx (ix2 b r) idx (0 : Fin 2)).val = b.val := by
  show (colDims B N R wf).start (ix2 b r) idx 0 + (colDims B N R wf).batchCoord (ix2 b r) 0
      + (colDims B N R wf).offCoord (ix2 b r) 0 = _
  rw [GatherDims.batchCoord_eq_zero _ _ _ List.not_mem_nil, Nat.add_zero]
  unfold GatherDims.start
  rw [dif_neg (zero_not_mem_startIndexMap wf), Nat.zero_add]
  unfold GatherDims.offCoord
  rw [dif_pos (zero_mem_sKept wf)]
  rfl

/-- On the COLUMN axis it is the clamped start: the axis is collapsed (no offset coordinate) and its start is the index
    column's word for result column r. -/
theorem operandIdx_col :
    ((colDims B N R wf).operandIdx (ix2 b r) idx (1 : Fin 2)).val = min (idx (ix2 r (0 : Fin 1))).toInt.toNat (N - 1) := by
  show (colDims B N R wf).start (ix2 b r) idx 1 + (colDims B N R wf).batchCoord (ix2 b r) 1
      + (colDims B N R wf).offCoord (ix2 b r) 1 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (1 : Fin 2) ∈ (colDims B N R wf).startIndexMap from List.mem_singleton.mpr rfl)]
  have hsi : (colDims B N R wf).siIdx (ix2 b r) ⟨List.idxOf (1 : Fin 2) (colDims B N R wf).startIndexMap,
      List.idxOf_lt_length_iff.2 (List.mem_singleton.mpr rfl)⟩ = ix2 r (0 : Fin 1) := by
    funext a; refine Fin.ext ?_
    match a with
    | ⟨0, _⟩ => rfl
    | ⟨1, _⟩ => rfl
  rw [hsi]
  rfl

end

/-- THE GATHER READ AT (b, r): the table at row b and the clamped start column. -/
theorem gather_cols_apply {B N R w : Nat} (hN : 0 < N)
    (wf : GatherDims.WF ⟨2, ![B, N]⟩ ⟨2, ![R, 1]⟩ ⟨2, ![B, R]⟩ [0] [1] [] [1] [] 1 ![B, 1])
    (x : (⟨2, ![B, N]⟩ : Shape).Idx → α) (idx : IVec ⟨2, ![R, 1]⟩ w) (b : Fin B) (r : Fin R) :
    Host.gather (colDims B N R wf) x idx (ix2 b r)
      = x (ix2 b ⟨min (idx (ix2 r (0 : Fin 1))).toInt.toNat (N - 1), by omega⟩) := by
  unfold Host.gather
  refine congrArg x (funext fun a => Fin.ext ?_)
  match a with
  | ⟨0, _⟩ => exact operandIdx_row wf idx b r
  | ⟨1, _⟩ => exact operandIdx_col wf idx b r

end Cert.ColGather

end
-- ==== Proof.LibRowScatter.lean ====
/-
  A general lemma: StableHLO's accumulating scatter of ROWS into a table at a COLUMN of scatter indices, read at an
  index, over the extended reals.

  What jax's segment_sum(updates, idx, num_segments = N) lowers to for updates [R, C] and an integer vector idx of
  length R: a scatter with an add body into a table [N, C] whose scatter indices are the vector laid out as an [R, 1]
  column (the index vector on the last axis, of length one), the table's axis 0 inserted and scatter-indexed, its axis 1
  the updates' one window axis. Update element (e, c) lands on table element (row, c), where row is idx[e, 0] read as
  a signed integer, and is dropped when that row is outside [0, N). Over the extended reals the result at (i, c) is
  the table's element there plus the sum of the updates (e, c) over the rows e whose index is i.
-/
import Idealize.ShloMosaic.Lib.ValueIdx
import Idealize.ShloMosaic.PureOps.Ideal
import Idealize.ShloMosaic.PureOps.Contract

noncomputable section

namespace Cert.RowScatter

open Idealize.ShloMosaic Idealize.ShloMosaic.ValueIdx

/-- Those dimension numbers, for a table [N, C], scatter indices [R, 1] and updates [R, C]; the conditions wf are
    decided on a program's literal shapes. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat}
  (wf : ScatterDims.WF ⟨2, ![N, C]⟩ ⟨2, ![R, 1]⟩ ⟨2, ![R, C]⟩ [1] [0] [0] 1)
  (idx : IVec ⟨2, ![R, 1]⟩ w) (e : Fin R) (c : Fin C)

/-- The table's row axis is inserted, so it is not among the kept axes … -/
theorem zero_not_mem_sKept : ¬ (0 : Fin 2) ∈ (rowDims N C R wf).sKept := by
  simp [ScatterDims.sKept, Shape.kept]

/-- … and its column axis is the one kept axis. -/
theorem one_mem_sKept : (1 : Fin 2) ∈ (rowDims N C R wf).sKept := by
  simp [ScatterDims.sKept, Shape.kept]

/-- On the ROW axis the window of update (e, c) starts at the index column's word for row e, read signed. -/
theorem start_row : (rowDims N C R wf).start (ix2 e c) idx (0 : Fin 2) = (idx (ix2 e (0 : Fin 1))).toInt := by
  unfold ScatterDims.start
  rw [dif_pos (show (0 : Fin 2) ∈ (rowDims N C R wf).scatterDimsToOperandDims from List.mem_singleton.mpr rfl)]
  have hsi : (rowDims N C R wf).siIdx (ix2 e c) ⟨List.idxOf (0 : Fin 2) (rowDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the COLUMN axis, which is not scatter-indexed, the window starts at 0. -/
theorem start_col : (rowDims N C R wf).start (ix2 e c) idx (1 : Fin 2) = 0 := by
  unfold ScatterDims.start
  rw [dif_neg (fun h => absurd (congrArg Fin.val (List.mem_singleton.mp h)) Nat.one_ne_zero)]

/-- The window coordinate on the inserted ROW axis is 0. -/
theorem window_row : (rowDims N C R wf).window (ix2 e c) (0 : Fin 2) = 0 := by
  unfold ScatterDims.window
  rw [dif_neg (zero_not_mem_sKept wf)]

/-- The window coordinate on the COLUMN axis is the update's column c. -/
theorem window_col : (rowDims N C R wf).window (ix2 e c) (1 : Fin 2) = c.val := by
  unfold ScatterDims.window
  rw [dif_pos (one_mem_sKept wf)]
  rfl

end

section
variable {N C R w : Nat}
  (wf : ScatterDims.WF ⟨2, ![N, C]⟩ ⟨2, ![R, 1]⟩ ⟨2, ![R, C]⟩ [1] [0] [0] 1)
  (idx : IVec ⟨2, ![R, 1]⟩ w)

/-- WHERE AN UPDATE LANDS: update (e, c') lands on table element (i, c) exactly when row e's scatter index, read
    signed, is i and the columns agree. Start plus window coordinate is (that index, c'); it is inside the table on the
    column axis always, and on the row axis exactly when the index is in [0, N), which i < N gives. -/
theorem resultIdx?_eq_some_iff (e : Fin R) (c' : Fin C) (i : Fin N) (c : Fin C) :
    (rowDims N C R wf).resultIdx? (ix2 e c') idx = some (ix2 i c)
      ↔ (idx (ix2 e (0 : Fin 1))).toInt = (i.val : Int) ∧ c' = c := by
  unfold ScatterDims.resultIdx?
  constructor
  · intro hEq
    split at hEq
    · rename_i h
      have hf := Option.some.inj hEq
      have h0 : ((rowDims N C R wf).start (ix2 e c') idx (0 : Fin 2)
          + ((rowDims N C R wf).window (ix2 e c') (0 : Fin 2) : Nat)).toNat = i.val :=
        congrArg (fun f : (⟨2, ![N, C]⟩ : Shape).Idx => (f (0 : Fin 2)).val) hf
      have h1 : ((rowDims N C R wf).start (ix2 e c') idx (1 : Fin 2)
          + ((rowDims N C R wf).window (ix2 e c') (1 : Fin 2) : Nat)).toNat = c.val :=
        congrArg (fun f : (⟨2, ![N, C]⟩ : Shape).Idx => (f (1 : Fin 2)).val) hf
      have hb : 0 ≤ (rowDims N C R wf).start (ix2 e c') idx (0 : Fin 2)
          + ((rowDims N C R wf).window (ix2 e c') (0 : Fin 2) : Nat) := (h (0 : Fin 2)).1
      rw [start_row, window_row] at h0 hb
      rw [start_col, window_col] at h1
      exact ⟨by omega, Fin.ext (by omega)⟩
    · exact absurd hEq (by simp)
  · rintro ⟨h0, rfl⟩
    have hall : ∀ a : Fin 2, 0 ≤ (rowDims N C R wf).start (ix2 e c') idx a + ((rowDims N C R wf).window (ix2 e c') a : Nat)
        ∧ (rowDims N C R wf).start (ix2 e c') idx a + ((rowDims N C R wf).window (ix2 e c') a : Nat)
            < ((⟨2, ![N, C]⟩ : Shape).size a : Nat) := by
      intro a
      match a with
      | ⟨0, _⟩ =>
        show 0 ≤ (rowDims N C R wf).start (ix2 e c') idx (0 : Fin 2) + ((rowDims N C R wf).window (ix2 e c') (0 : Fin 2) : Nat)
          ∧ (rowDims N C R wf).start (ix2 e c') idx (0 : Fin 2) + ((rowDims N C R wf).window (ix2 e c') (0 : Fin 2) : Nat) < (N : Int)
        rw [start_row, window_row, h0]
        have := i.isLt
        omega
      | ⟨1, _⟩ =>
        show 0 ≤ (rowDims N C R wf).start (ix2 e c') idx (1 : Fin 2) + ((rowDims N C R wf).window (ix2 e c') (1 : Fin 2) : Nat)
          ∧ (rowDims N C R wf).start (ix2 e c') idx (1 : Fin 2) + ((rowDims N C R wf).window (ix2 e c') (1 : Fin 2) : Nat) < (C : Int)
        rw [start_col, window_col]
        have := c'.isLt
        omega
    rw [dif_pos hall]
    refine congrArg some (funext fun a => Fin.ext ?_)
    match a with
    | ⟨0, _⟩ =>
      show ((rowDims N C R wf).start (ix2 e c') idx (0 : Fin 2) + ((rowDims N C R wf).window (ix2 e c') (0 : Fin 2) : Nat)).toNat = i.val
      rw [start_row, window_row, h0]
      omega
    | ⟨1, _⟩ =>
      show ((rowDims N C R wf).start (ix2 e c') idx (1 : Fin 2) + ((rowDims N C R wf).window (ix2 e c') (1 : Fin 2) : Nat)).toNat = c'.val
      rw [start_col, window_col]
      omega

end

/-- THE ACCUMULATING SCATTER READ AT (i, c), over the extended reals: the table there plus the updates (e, c) of the
    rows e whose scatter index, read signed, is i. -/
theorem scatterAdd_rows_apply {N C R w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (i : Fin N) (c : Fin C) :
    Host.scatterAdd (rowDims N C R wf) x idx upd (ix2 i c)
      = x (ix2 i c) + ∑ e ∈ Finset.univ.filter (fun e : Fin R => (idx (ix2 e (0 : Fin 1))).toInt = (i.val : Int)),
          upd (ix2 e c) := by
  -- The scatter at (i, c) is the table there plus the sum of the updates that land there; the updates that land at
  -- (i, c) are the (e, c) with row e's index equal to i, and e ↦ (e, c) is a bijection onto them with inverse j ↦ j 0.
  unfold Host.scatterAdd
  rw [Ideal.hostScatterAdd_def]
  unfold Ideal.hostScatterAdd
  refine congrArg (x (ix2 i c) + ·) ?_
  symm
  refine Finset.sum_nbij' (fun e : Fin R => (ix2 e c : (⟨2, ![R, C]⟩ : Shape).Idx))
    (fun j : (⟨2, ![R, C]⟩ : Shape).Idx => (j (0 : Fin 2) : Fin R)) ?_ ?_ ?_ ?_ ?_
  · intro e he
    rw [Finset.mem_filter] at he ⊢
    exact ⟨Finset.mem_univ _, (resultIdx?_eq_some_iff wf idx e c i c).mpr ⟨he.2, rfl⟩⟩
  · intro j hj
    obtain ⟨a, b, rfl⟩ : ∃ a b, j = ix2 a b := ⟨j 0, j 1, eq_ix2 j⟩
    rw [Finset.mem_filter] at hj ⊢
    exact ⟨Finset.mem_univ _, ((resultIdx?_eq_some_iff wf idx a b i c).mp hj.2).1⟩
  · intro e _
    rfl
  · intro j hj
    obtain ⟨a, b, rfl⟩ : ∃ a b, j = ix2 a b := ⟨j 0, j 1, eq_ix2 j⟩
    rw [Finset.mem_filter] at hj
    rw [((resultIdx?_eq_some_iff wf idx a b i c).mp hj.2).2]
  · intro e _
    rfl

end Cert.RowScatter

end
-- ==== Proof.RefValue.lean ====
/-
  The reference, read at an index.

  The reference gathers, for each of the 327680 triples e, the input's column named by the triple's column word (a
  negative word first counted from the end, then clamped into [0, 4095] by the gather), scales it by the triple's value,
  and adds these [512]-vectors into the rows of a [4096, 512] table named by the triples' row words, read signed, a row
  word outside [0, 4096) dropping its vector. Transposed and with the dense bias row added, entry (b, r) of its result
  is the sum over the triples e whose row word is r of input(b, column of e) · value(e), plus bias(r).
-/
import proofs.«418960_j11175504904588_1_alg».proof.Proof.Gen.ReferenceIdeal.Read
import proofs.«418960_j11175504904588_1_alg».proof.Proof.LibColGather
import proofs.«418960_j11175504904588_1_alg».proof.Proof.LibRowScatter
import proofs.«418960_j11175504904588_1_alg».proof.Proof.SpmmLaw
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic
  Idealize.ShloMosaic.ValueIdx Cert.Spmm

variable (x0 : (⟨S512x4096, .f32⟩ : BufTy).Contents (Elt Ideal)) (x1 x2 : (⟨S327680, .i32⟩ : BufTy).Contents (Elt Ideal))
  (x3 : (⟨S327680, .f32⟩ : BufTy).Contents (Elt Ideal))
  (x4 : (⟨S2048, .i32⟩ : BufTy).Contents (Elt Ideal)) (x5 : (⟨S2048, .f32⟩ : BufTy).Contents (Elt Ideal))

/-! ### The index functions of the layout operations, at coordinates -/

theorem idx5 (e : Fin 327680) : idx_main_v5 (ix2 e (0 : Fin 1)) = ix1 e :=
  funext fun a => by match a with | ⟨0, _⟩ => rfl
theorem idx7 (e : Fin 327680) (b : Fin 512) : idx_main_v7 (ix2 e b) = ix2 b e :=
  funext fun a => by match a with | ⟨0, _⟩ => rfl | ⟨1, _⟩ => rfl
theorem idx8 (e : Fin 327680) : idx_main_v8 (ix2 e (0 : Fin 1)) = ix1 e :=
  funext fun a => by match a with | ⟨0, _⟩ => rfl
theorem idx9 (e : Fin 327680) (b : Fin 512) : idx_main_v9 (ix2 e b) = ix2 e (0 : Fin 1) :=
  funext fun a => by match a with | ⟨0, _⟩ => rfl | ⟨1, _⟩ => rfl
theorem idx12 (e : Fin 327680) : idx_main_v12 (ix2 e (0 : Fin 1)) = ix1 e :=
  funext fun a => by match a with | ⟨0, _⟩ => rfl
theorem idx14 (b : Fin 512) (r : Fin 4096) : idx_main_v14 (ix2 b r) = ix2 r b :=
  funext fun a => by match a with | ⟨0, _⟩ => rfl | ⟨1, _⟩ => rfl
theorem idx24 (b : Fin 512) (r : Fin 4096) : idx_main_v24 (ix2 b r) = ix2 (0 : Fin 1) r :=
  funext fun a => by match a with | ⟨0, _⟩ => rfl | ⟨1, _⟩ => rfl
theorem idx23 (r : Fin 4096) : idx_main_v23 (ix2 (0 : Fin 1) r) = ix1 r :=
  funext fun a => by match a with | ⟨0, _⟩ => rfl

/-! ### The stages at coordinates -/

/-- Triple e's column word after the index normalisation. -/
theorem colword_at (e : Fin 327680) : val_main_v5 (F := Ideal) x2 (ix2 e (0 : Fin 1)) = wrapw (x2 (ix1 e)) := by
  rw [val_main_v5_apply, idx5, val_main_v4_apply, val_main_v1_apply, val_main_v3_apply, val_main_v0_apply,
    val_main_v2_apply, val_main_c_apply, val_main_c_0_apply]
  rfl

/-- The gathered column of triple e at row b: the input at (b, the clamped column). -/
theorem gathered_at (b : Fin 512) (e : Fin 327680) :
    val_main_v6 (F := Ideal) x0 x2 (ix2 b e) = x0 (ix2 b (clampCol (wrapw (x2 (ix1 e))))) := by
  unfold val_main_v6
  have hd : gather_S512x4096_S327680x1_S512x327680_0_1_n_n_1_1_5121
      = Cert.ColGather.colDims 512 4096 327680 Facts₀.gather_S512x4096_S327680x1_S512x327680_0_1_n_n_1_1_5121_wf := rfl
  rw [hd, Cert.ColGather.gather_cols_apply (by decide)]
  refine congrArg (fun q : Fin 4096 => x0 (ix2 b q)) (Fin.ext ?_)
  show min (val_main_v5 (F := Ideal) x2 (ix2 e (0 : Fin 1))).toInt.toNat (4096 - 1) = min (wrapw (x2 (ix1 e))).toInt.toNat 4095
  rw [colword_at]

/-- Triple e's contribution at row b: the gathered input times the triple's value. -/
theorem contrib_at (e : Fin 327680) (b : Fin 512) :
    val_main_v10 (F := Ideal) x0 x2 x3 (ix2 e b) = x0 (ix2 b (clampCol (wrapw (x2 (ix1 e))))) * x3 (ix1 e) := by
  rw [val_main_v10_apply, val_main_v7_apply, idx7, gathered_at, val_main_v9_apply, idx9, val_main_v8_apply, idx8]
  rfl

/-- The row word of triple e, as the accumulation reads it. -/
theorem rowword_at (e : Fin 327680) : val_main_v12 (F := Ideal) x1 (ix2 e (0 : Fin 1)) = x1 (ix1 e) := by
  rw [val_main_v12_apply, idx12]

/-- The table the rows are added into is zero. -/
theorem zero_table_at (i : S4096x512.Idx) : val_main_v11 (F := Ideal) i = 0 := by
  rw [val_main_v11_apply, val_main_cst_apply]
  exact Ideal.ofBits_zero_f32

/-- The accumulated table at (r, b): the contributions of the triples whose row word is r. -/
theorem segsum_at (r : Fin 4096) (b : Fin 512) :
    val_main_v13 (F := Ideal) x0 x1 x2 x3 (ix2 r b)
      = ∑ e ∈ Finset.univ.filter (fun e : Fin 327680 => (x1 (ix1 e)).toInt = (r.val : Int)),
          x0 (ix2 b (clampCol (wrapw (x2 (ix1 e))))) * x3 (ix1 e) := by
  unfold val_main_v13
  have hd : scatter_S4096x512_S327680x1_S327680x512_1_0_0_1
      = Cert.RowScatter.rowDims 4096 512 327680 Facts₀.scatter_S4096x512_S327680x1_S327680x512_1_0_0_1_wf := rfl
  rw [hd, Cert.RowScatter.scatterAdd_rows_apply, zero_table_at, zero_add]
  simp only [rowword_at, contrib_at]

/-- THE REFERENCE AT (b, r): the sparse sum of row r against row b of the input, plus the dense bias at r. -/
theorem result_at (b : Fin 512) (r : Fin 4096) :
    val_main_v25 (F := Ideal) x0 x1 x2 x3 x4 x5 (ix2 b r)
      = (∑ e ∈ Finset.univ.filter (fun e : Fin 327680 => (x1 (ix1 e)).toInt = (r.val : Int)),
          x0 (ix2 b (clampCol (wrapw (x2 (ix1 e))))) * x3 (ix1 e))
        + val_main_v22 (F := Ideal) x4 x5 (ix1 r) := by
  rw [val_main_v25_apply, val_main_v14_apply, idx14, segsum_at, val_main_v24_apply, idx24, val_main_v23_apply, idx23]
  rfl

end Cert.ReferenceIdeal.RefValue

end
-- ==== Proof.DenseSparse.lean ====
/-
  A row of the input against a column of the densified weights is the sparse sum over the triples of that row.

  The weight table has at (c, r) the sum of the values of the triples whose (normalised) column word is c and whose
  (normalised) row word is r. When every column word lies in [0, 4096) and every row word is not negative, the
  normalisation of a negative word changes nothing, the clamp of a column word changes nothing, and a triple's column
  word is c exactly when its clamped column is c. The dot product of row b of the input with column r of the table then
  distributes over the triples (the input and the values being real numbers): it is the sum, over the triples whose row
  word is r, of input(b, column of the triple) · value of the triple.
-/
import proofs.«418960_j11175504904588_1_alg».proof.Proof.SpmmLaw
import Idealize.ShloMosaic.Lib.ValueIdx

noncomputable section

namespace Cert.Spmm

open Idealize.ShloMosaic Idealize.ShloMosaic.ValueIdx

theorem rowdot_dense_eq_sparse
    (x0 : (⟨2, ![512, 4096]⟩ : Shape).Idx → EReal) (x1 x2 : IVec ⟨1, ![327680]⟩ 32)
    (x3 : (⟨1, ![327680]⟩ : Shape).Idx → EReal) (W : (⟨2, ![4096, 4096]⟩ : Shape).Idx → EReal)
    (h0 : ∀ i, x0 i ≠ ⊤ ∧ x0 i ≠ ⊥) (h3 : ∀ k, x3 k ≠ ⊤ ∧ x3 k ≠ ⊥)
    (h2 : ∀ k, 0 ≤ (x2 k).toInt ∧ (x2 k).toInt < 4096) (h1 : ∀ k, 0 ≤ (x1 k).toInt)
    (hW : ∀ c r : Fin 4096, W (ix2 c r) = ∑ e ∈ Finset.univ.filter (fun e : Fin 327680 =>
        (wrapw (x2 (ix1 e))).toInt = (c.val : Int) ∧ (wrapw (x1 (ix1 e))).toInt = (r.val : Int)), x3 (ix1 e))
    (b : Fin 512) (r : Fin 4096) :
    ∑ k : Fin 4096, x0 (ix2 b k) * W (ix2 k r)
      = ∑ e ∈ Finset.univ.filter (fun e : Fin 327680 => (x1 (ix1 e)).toInt = (r.val : Int)),
          x0 (ix2 b (clampCol (wrapw (x2 (ix1 e))))) * x3 (ix1 e) := by
  have hw2 : ∀ e : Fin 327680, wrapw (x2 (ix1 e)) = x2 (ix1 e) := fun e => wrapw_of_nonneg _ (h2 _).1
  have hw1 : ∀ e : Fin 327680, wrapw (x1 (ix1 e)) = x1 (ix1 e) := fun e => wrapw_of_nonneg _ (h1 _)
  simp only [hW, hw2, hw1]
  rw [← dense_eq_sparse (fun k : Fin 4096 => x0 (ix2 b k)) (fun e : Fin 327680 => x3 (ix1 e)) (fun k => h0 _) (fun e => h3 _)
    (fun e => clampCol (x2 (ix1 e))) (fun e => (x1 (ix1 e)).toInt = (r.val : Int))]
  refine Finset.sum_congr rfl fun k _ => ?_
  refine congrArg (x0 (ix2 b k) * ·) (Finset.sum_congr ?_ fun _ _ => rfl)
  ext e
  simp only [Finset.mem_filter, Finset.mem_univ, true_and]
  refine and_congr_left' ?_
  have hc := clampCol_val (x2 (ix1 e)) (h2 (ix1 e)).1 (h2 (ix1 e)).2
  constructor
  · intro h
    exact Fin.ext (by omega)
  · intro h
    rw [h] at hc
    exact hc.symm

end Cert.Spmm

end
-- ==== Proof.PreFacts.lean ====
import Idealize.ShloMosaic.Lib.ValueIdx
import Idealize.ShloMosaic.Lib.ReduceAll
import Idealize.ShloMosaic.PureOps.Ideal
import proofs.«418960_j11175504904588_1_alg».proof.Pre_finite_inputs

/-!
# What the precondition says of the inputs

The precondition is a conjunction of six "for all entries" tests, each a reduction by `and` of an
entrywise comparison, and the hypothesis is that the whole conjunction is the one-bit word 1. This
module reads it back entry by entry:

* `|x| < +∞` on the extended reals, where `|x| = max x (-x)`, excludes both infinities, because
  `max x (-x) = ⊤` at `x = ⊤` and at `x = ⊥`;
* a signed comparison of a 32-bit word against a splat constant is the comparison of the signed
  values, and the constants `0` and `4096` denote the integers 0 and 4096.
-/

noncomputable section

namespace Cert.PreFacts
open Idealize.ShloMosaic Cert.Pre_finite_inputs

/-- The shape of rank 0 has exactly one index, so a reduction over all axes has one result. -/
instance : Subsingleton S_.Idx := ⟨fun a b => funext fun d => d.elim0⟩

/-- The f32 word with all exponent bits set and a zero significand denotes `+∞`. -/
theorem inf_word : Ideal.ofBits .f32 0x7F800000#32 = (⊤ : EReal) := by simp [Ideal.ofBits, Ideal.ieee]

/-- `|x| < +∞` excludes both infinities: `max ⊤ (-⊤) = ⊤` and `max ⊥ (-⊥) = max ⊥ ⊤ = ⊤`. -/
theorem finite_of_abs_lt (x : EReal)
    (h : Ideal.cmp .olt (max x (-x)) (Ideal.ofBits .f32 0x7F800000#32) = 1#1) : x ≠ ⊤ ∧ x ≠ ⊥ := by
  rw [inf_word] at h
  have hlt : max x (-x) < ⊤ := by
    by_contra hn
    have h0 : Ideal.cmp .olt (max x (-x)) ⊤ = 0#1 := by simp [Ideal.cmp, hn]
    rw [h0] at h
    exact absurd h (by decide)
  constructor
  · rintro rfl; simp at hlt
  · rintro rfl; simp at hlt

/-- The precondition read back: every entry of the dense input and of the weight values is a real
    number, every column index lies in `[0, 4096)`, and every row index is non-negative. -/
theorem of_pre [Cert.Pre_finite_inputs.Facts] (x0 : FVec Ideal S512x4096 .f32) (x1 x2 : IVec S327680 32) (x3 : FVec Ideal S327680 .f32)
    (x4 : IVec S2048 32) (x5 : FVec Ideal S2048 .f32)
    (h : Cert.Pre_finite_inputs.fn (F := Ideal) x0 x1 x2 x3 x4 x5 = fun _ => 1#1) :
    (∀ i, x0 i ≠ ⊤ ∧ x0 i ≠ ⊥) ∧ (∀ k, x3 k ≠ ⊤ ∧ x3 k ≠ ⊥)
      ∧ (∀ k, 0 ≤ (x2 k).toInt ∧ (x2 k).toInt < 4096) ∧ (∀ k, 0 ≤ (x1 k).toInt) := by
  -- the one entry of the rank-0 result, as a conjunction of six reductions
  have e := congrFun h ValueIdx.ix0
  dsimp only [Cert.Pre_finite_inputs.fn, Cert.Pre_finite_inputs.fn_part1] at e
  simp only [andi, IntOp.andi_eq_one] at e
  obtain ⟨⟨⟨⟨⟨h0, h3⟩, -⟩, h2lo⟩, h2hi⟩, h1⟩ := e
  have z0 : (0#32 : BitVec 32).toInt = 0 := by decide
  have z4096 : (4096#32 : BitVec 32).toInt = 4096 := by decide
  refine ⟨fun i => ?_, fun k => ?_, fun k => ⟨?_, ?_⟩, fun k => ?_⟩
  · -- a reduction by `and` that is 1 had a 1 at every entry; the entry is the test |x0 i| < +∞
    exact finite_of_abs_lt (x0 i) (Host.reduce_andi_all _ _ _ _ _ h0 i)
  · exact finite_of_abs_lt (x3 k) (Host.reduce_andi_all _ _ _ _ _ h3 k)
  · -- 0 ≤ x2 k, signed
    have c : IntOp.cmpi .sge (x2 k) 0#32 = 1#1 := Host.reduce_andi_all _ _ _ _ _ h2lo k
    have := IntOp.cmpi_sge.1 c
    rwa [z0] at this
  · -- x2 k < 4096, signed
    have c : IntOp.cmpi .slt (x2 k) 4096#32 = 1#1 := Host.reduce_andi_all _ _ _ _ _ h2hi k
    have := IntOp.cmpi_slt.1 c
    rwa [z4096] at this
  · -- 0 ≤ x1 k, signed
    have c : IntOp.cmpi .sge (x1 k) 0#32 = 1#1 := Host.reduce_andi_all _ _ _ _ _ h1 k
    have := IntOp.cmpi_sge.1 c
    rwa [z0] at this

end Cert.PreFacts

end
-- ==== Proof.Bridge.lean ====
/-
  The kernel's result and the reference's result are one function of the arguments, under the precondition.

  The kernel's region leaves x · w + bz of the three arrays it finds: x the input, w the densified weights, bz the
  densified bias as a row. Entry (b, r) is therefore Σ_c input(b, c) · (Σ of the values of the triples whose pair is
  (c, r)) + bias(r). The reference's entry (b, r) is the sum, over the triples whose row word is r, of
  input(b, clamped column of the triple) · value of the triple, plus the same bias(r). With every column word in
  [0, 4096), every row word not negative, and the input and the values real numbers, the two sums agree: the product
  distributes over the triples and a triple sits in exactly one column.
-/
import proofs.«418960_j11175504904588_1_alg».proof.Proof.KernelHost
import proofs.«418960_j11175504904588_1_alg».proof.Proof.RefValue
import proofs.«418960_j11175504904588_1_alg».proof.Proof.DenseSparse
import proofs.«418960_j11175504904588_1_alg».proof.Proof.MatBias
import proofs.«418960_j11175504904588_1_alg».proof.Proof.PreFacts

noncomputable section

namespace Cert.Bridge

open Idealize.ShloMosaic Idealize.ShloMosaic.TcCoe Idealize.SL.Sem Idealize.ShloMosaic.ValueIdx Cert.Spmm
open Cert.KernelIdeal (nD τ sig main_arg0 main_arg1 main_arg2 main_arg3 main_arg4 main_arg5 main_v15 main_v24 main_v25)
open Cert.KernelIdeal.Gen (V)
open Cert.KernelIdeal.HostValue

/-- The two programs densify the bias by the same operations: one term. -/
theorem bias_eq (x4 : IVec ⟨1, ![2048]⟩ 32) (x5 : FVec Ideal ⟨1, ![2048]⟩ .f32) :
    Cert.ReferenceIdeal.Read.val_main_v22 (F := Ideal) x4 x5 = biasvec x4 x5 := rfl

/-- The two results as functions of arrays of the literal shapes: X, W, BZ stand for what the region finds, known only
    through their entries (hX: the input; hW: the table of matching triples; hB: the bias vector as a row). -/
theorem matBias_eq_reference
    (x0 : (⟨2, ![512, 4096]⟩ : Shape).Idx → EReal) (x1 x2 : IVec ⟨1, ![327680]⟩ 32)
    (x3 : (⟨1, ![327680]⟩ : Shape).Idx → EReal) (x4 : IVec ⟨1, ![2048]⟩ 32) (x5 : (⟨1, ![2048]⟩ : Shape).Idx → EReal)
    (X : (⟨2, ![512, 4096]⟩ : Shape).Idx → EReal) (W : (⟨2, ![4096, 4096]⟩ : Shape).Idx → EReal)
    (BZ : (⟨2, ![1, 4096]⟩ : Shape).Idx → EReal)
    (hX : ∀ i, X i = x0 i)
    (hW : ∀ a r : Fin 4096, W (ix2 a r) = ∑ e ∈ Finset.univ.filter (fun e : Fin 327680 =>
        (wrapw (x2 (ix1 e))).toInt = (a.val : Int) ∧ (wrapw (x1 (ix1 e))).toInt = (r.val : Int)), x3 (ix1 e))
    (hB : ∀ r : Fin 4096, BZ (ix2 (0 : Fin 1) r) = Cert.ReferenceIdeal.Read.val_main_v22 (F := Ideal) x4 x5 (ix1 r))
    (h0 : ∀ i, x0 i ≠ ⊤ ∧ x0 i ≠ ⊥) (h3 : ∀ k, x3 k ≠ ⊤ ∧ x3 k ≠ ⊥)
    (h2 : ∀ k, 0 ≤ (x2 k).toInt ∧ (x2 k).toInt < 4096) (h1 : ∀ k, 0 ≤ (x1 k).toInt) :
    matBias X W BZ = Cert.ReferenceIdeal.Read.val_main_v25 (F := Ideal) x0 x1 x2 x3 x4 x5 := by
  funext i
  obtain ⟨b, r, rfl⟩ : ∃ (b : Fin 512) (r : Fin 4096), i = ix2 b r := ⟨i 0, i 1, eq_ix2 i⟩
  rw [matBias_apply, Cert.ReferenceIdeal.RefValue.result_at, hB r]
  refine congrArg (· + Cert.ReferenceIdeal.Read.val_main_v22 (F := Ideal) x4 x5 (ix1 r)) ?_
  rw [Finset.sum_congr rfl fun k _ => congrArg (· * W (ix2 k r)) (hX (ix2 b k))]
  exact rowdot_dense_eq_sparse x0 x1 x2 x3 W h0 h3 h2 h1 hW b r

variable [Cert.Pre_finite_inputs.Facts]

/-- Under the precondition of the kernel's arguments, x · w + bz of the arrays the region finds is the reference's
    result term of the same arguments. -/
theorem kernel_eq_reference (m : (ℓ : Loc nD τ sig) → Buf (Elt Ideal) ℓ) (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    matBias (V m c main_v25) (V m c main_v15) (V m c main_v24)
      = Cert.ReferenceIdeal.Read.val_main_v25 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  obtain ⟨h0, h3, h2, h1⟩ := Cert.PreFacts.of_pre _ _ _ _ _ _ hpre
  refine matBias_eq_reference (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (V m c main_v25) (V m c main_v15) (V m c main_v24) ?_ ?_ ?_ h0 h3 h2 h1
  · -- the input narrowed is the input
    exact fun i => congrFun (V_input m c) i
  · -- the weights narrowed are the table of matching triples
    exact fun a r => (congrFun (V_weights m c) (ix2 a r)).trans (dense_apply _ _ _ a r)
  · -- the bias row is the bias vector, which the two programs build alike
    exact fun r => (congrFun (V_biasrow m c) (ix2 (0 : Fin 1) r)).trans
      ((biasrow_apply _ r).trans (congrFun (bias_eq _ _).symm (ix1 r)))

end Cert.Bridge

end
-- ==== Proof.lean ====
/- A sparse linear layer: out = input · Wᵀ + bias, the weights W [4096, 4096] given as 327680 triples (row, column, value)
   and the bias [4096] as 2048 pairs (index, value).

   The kernel first densifies: it adds every triple's value into a zero table at (column, row) and every bias value into a
   zero vector at its index, negative words counted from the end and words outside the table dropped; then one tiled
   matrix product with the bias row added computes, for the entry (b, r),
       Σ_c input(b, c) · table(c, r) + bias(r),      table(c, r) = Σ of the values of the triples whose pair is (c, r).
   The reference never densifies the weights: it gathers column (column word of the triple, clamped) of the input for
   every triple, scales it by the triple's value, and adds the result into row (row word of the triple) of the output:
       Σ_{triples of row r} input(b, column of the triple) · value + bias(r).
   When every column word lies in [0, 4096) and every row word is not negative (the added precondition: outside it the
   reference indexes its arrays out of range), a triple's pair is (c, r) exactly when its clamped column is c and its row
   word is r; the input and the values being real numbers, the product distributes over the triples and the double sum
   over (c, triples of column c) is the single sum over the triples: the two entries are equal on the extended reals.
   The bias term is the same term in both programs and is never opened.

   The three frames: the kernel's two are its generated frame at both instances; the reference is a straight line of
   host operations, its frame its run with the result dropped. No operation was rewritten by the idealization. -/
import proofs.«418960_j11175504904588_1_alg».proof.Defs
import proofs.«418960_j11175504904588_1_alg».proof.Proof.Gen.Kernel
import proofs.«418960_j11175504904588_1_alg».proof.Proof.Gen.Kernel.Skeleton
import proofs.«418960_j11175504904588_1_alg».proof.Proof.Gen.Kernel.Launch
import proofs.«418960_j11175504904588_1_alg».proof.Proof.Gen.Kernel.Points
import proofs.«418960_j11175504904588_1_alg».proof.Proof.Gen.Kernel.Frame
import proofs.«418960_j11175504904588_1_alg».proof.Proof.Gen.KernelIdeal
import proofs.«418960_j11175504904588_1_alg».proof.Proof.Gen.KernelIdeal.Skeleton
import proofs.«418960_j11175504904588_1_alg».proof.Proof.Gen.KernelIdeal.Launch
import proofs.«418960_j11175504904588_1_alg».proof.Proof.Gen.KernelIdeal.Points
import proofs.«418960_j11175504904588_1_alg».proof.Proof.Gen.KernelIdeal.Frame
import proofs.«418960_j11175504904588_1_alg».proof.Proof.Gen.ReferenceIdeal
import proofs.«418960_j11175504904588_1_alg».proof.Proof.Gen.Pre_finite_inputs
import proofs.«418960_j11175504904588_1_alg».proof.Proof.Gen.KernelIdeal.Value
import proofs.«418960_j11175504904588_1_alg».proof.Proof.Gen.ReferenceIdeal.Run
import proofs.«418960_j11175504904588_1_alg».proof.Proof.Gen.ReferenceIdeal.Read
import proofs.«418960_j11175504904588_1_alg».proof.Proof.KernelValue
import proofs.«418960_j11175504904588_1_alg».proof.Proof.Bridge
import Idealize.ShloMosaic.Adequacy
import Idealize.ShloMosaic.Init

noncomputable section

namespace Cert.Proof

open Idealize.ShloMosaic Idealize.SL.Sem Cert.Kernel

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the dense layer of the arrays the kernel's region finds: the kernel by its value leg, the
    reference because its result term is that function of the (agreeing) arguments, under the precondition. -/
theorem algebraic : Cert.algebraic_KernelIdeal_ReferenceIdeal := by
  intro m ρ m' ρ' hpre hagree
  refine ⟨fun c => Cert.Spmm.matBias (Cert.KernelIdeal.Gen.V m c Cert.KernelIdeal.main_v25)
      (Cert.KernelIdeal.Gen.V m c Cert.KernelIdeal.main_v15) (Cert.KernelIdeal.Gen.V m c Cert.KernelIdeal.main_v24),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1,
    (hagree c).2.2.2.2.1, (hagree c).2.2.2.2.2]
  exact (Cert.Bridge.kernel_eq_reference m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
